-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v4) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x2048 : Shape := ⟨2, ![8192, 2048]⟩
abbrev S4095x2048 : Shape := ⟨2, ![4095, 2048]⟩
abbrev S4096 : Shape := ⟨1, ![4096]⟩
abbrev S4095x4096 : Shape := ⟨2, ![4095, 4096]⟩
abbrev S_ : Shape := ⟨0, ![]⟩

class Facts : Prop where
  bcast_S_S8192x2048 : S_.BroadcastsInDim S8192x2048 (![] : Fin 0 → Fin S8192x2048.rank)
  reducesTo_S8192x2048_S_d0_1 : S8192x2048.ReducesTo [0, 1] S_
  h_S_ : 0 < S_.numel
  bcast_S_S4095x2048 : S_.BroadcastsInDim S4095x2048 (![] : Fin 0 → Fin S4095x2048.rank)
  reducesTo_S4095x2048_S_d0_1 : S4095x2048.ReducesTo [0, 1] S_
  bcast_S_S4096 : S_.BroadcastsInDim S4096 (![] : Fin 0 → Fin S4096.rank)
  reducesTo_S4096_S_d0 : S4096.ReducesTo [0] S_
  bcast_S_S4095x4096 : S_.BroadcastsInDim S4095x4096 (![] : Fin 0 → Fin S4095x4096.rank)
  reducesTo_S4095x4096_S_d0_1 : S4095x4096.ReducesTo [0, 1] S_

variable [Facts]

def fn_part1 {F : FTy → Type} [FloatOps F] (main_v13 : IVec S_ 1) (main_v16 : IVec S4095x4096 1) : IVec S_ 1 :=
  let main_c_5 : IVec S_ 1 := constantI S_ 1 1#1
  let main_v17 : IVec S_ 1 := (fun x v => Host.reduce IntOp.andi x v reducesTo_S4095x4096_S_d0_1 h_S_) main_v16 main_c_5
  let main_v18 : IVec S_ 1 := andi main_v13 main_v17
  main_v18

def fn {F : FTy → Type} [FloatOps F] (main_arg0 : FVec F S8192x2048 .f32) (main_arg1 : FVec F S4095x2048 .f32) (main_arg2 : FVec F S4096 .f32) (main_arg3 : FVec F S4095x4096 .f32) : IVec S_ 1 :=
  let main_v0 : FVec F S8192x2048 .f32 := Host.absf main_arg0
  let main_cst : FVec F S_ .f32 := constant S_ .f32 0x7F800000#32
  let main_v1 : FVec F S8192x2048 .f32 := broadcastInDim S8192x2048 ![] bcast_S_S8192x2048 main_cst
  let main_v2 : IVec S8192x2048 1 := cmpf .olt main_v0 main_v1
  let main_c : IVec S_ 1 := constantI S_ 1 1#1
  let main_v3 : IVec S_ 1 := (fun x v => Host.reduce IntOp.andi x v reducesTo_S8192x2048_S_d0_1 h_S_) main_v2 main_c
  let main_v4 : FVec F S4095x2048 .f32 := Host.absf main_arg1
  let main_cst_0 : FVec F S_ .f32 := constant S_ .f32 0x7F800000#32
  let main_v5 : FVec F S4095x2048 .f32 := broadcastInDim S4095x2048 ![] bcast_S_S4095x2048 main_cst_0
  let main_v6 : IVec S4095x2048 1 := cmpf .olt main_v4 main_v5
  let main_c_1 : IVec S_ 1 := constantI S_ 1 1#1
  let main_v7 : IVec S_ 1 := (fun x v => Host.reduce IntOp.andi x v reducesTo_S4095x2048_S_d0_1 h_S_) main_v6 main_c_1
  let main_v8 : IVec S_ 1 := andi main_v3 main_v7
  let main_v9 : FVec F S4096 .f32 := Host.absf main_arg2
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  let main_v14 : FVec F S4095x4096 .f32 := Host.absf main_arg3
  let main_cst_4 : FVec F S_ .f32 := constant S_ .f32 0x7F800000#32
  let main_v15 : FVec F S4095x4096 .f32 := broadcastInDim S4095x4096 ![] bcast_S_S4095x4096 main_cst_4
  let main_v16 : IVec S4095x4096 1 := cmpf .olt main_v14 main_v15
  fn_part1 (F := F) main_v13 main_v16
-- ==== Kernel.lean ====
abbrev S8192x2048 : Shape := ⟨2, ![8192, 2048]⟩
abbrev S4095x2048 : Shape := ⟨2, ![4095, 2048]⟩
abbrev S4096 : Shape := ⟨1, ![4096]⟩
abbrev S4095x4096 : Shape := ⟨2, ![4095, 4096]⟩
abbrev S1x4096 : Shape := ⟨2, ![1, 4096]⟩
abbrev S2048x4096 : Shape := ⟨2, ![2048, 4096]⟩
abbrev S4095x512 : Shape := ⟨2, ![4095, 512]⟩
abbrev S2048x512 : Shape := ⟨2, ![2048, 512]⟩
abbrev S8192x4096 : Shape := ⟨2, ![8192, 4096]⟩
abbrev S1024x2048 : Shape := ⟨2, ![1024, 2048]⟩
abbrev S2048x1024 : Shape := ⟨2, ![2048, 1024]⟩
abbrev S1x1024 : Shape := ⟨2, ![1, 1024]⟩
abbrev S1024x1024 : Shape := ⟨2, ![1024, 1024]⟩

abbrev nBuf : Space → Nat
  | .hbm => 10
  | .vmem => 13
  | .smem => 0
  | _ => 0

abbrev bufTy : (tb : Table) → Fin (tcTables nBuf tb) → BufTy
  | .hbm, ⟨0, _⟩ => ⟨S8192x2048, .f32⟩
  | .hbm, ⟨1, _⟩ => ⟨S4095x2048, .f32⟩
  | .hbm, ⟨2, _⟩ => ⟨S4096, .f32⟩
  | .hbm, ⟨3, _⟩ => ⟨S4095x4096, .f32⟩
  | .hbm, ⟨4, _⟩ => ⟨S4095x2048, .bf16⟩
  | .hbm, ⟨5, _⟩ => ⟨S4095x4096, .bf16⟩
  | .hbm, ⟨6, _⟩ => ⟨S8192x2048, .bf16⟩
  | .hbm, ⟨7, _⟩ => ⟨S1x4096, .f32⟩
  | .hbm, ⟨8, _⟩ => ⟨S2048x4096, .bf16⟩
  | .hbm, ⟨9, _⟩ => ⟨S8192x4096, .f32⟩
  | .local _ .vmem, ⟨0, _⟩ => ⟨S4095x2048, .bf16⟩
  | .local _ .vmem, ⟨1, _⟩ => ⟨S4095x512, .bf16⟩
  | .local _ .vmem, ⟨2, _⟩ => ⟨S4095x512, .bf16⟩
  | .local _ .vmem, ⟨3, _⟩ => ⟨S2048x512, .bf16⟩
  | .local _ .vmem, ⟨4, _⟩ => ⟨S2048x512, .bf16⟩
  | .local _ .vmem, ⟨5, _⟩ => ⟨S1024x2048, .bf16⟩
  | .local _ .vmem, ⟨6, _⟩ => ⟨S1024x2048, .bf16⟩
  | .local _ .vmem, ⟨7, _⟩ => ⟨S2048x1024, .bf16⟩
  | .local _ .vmem, ⟨8, _⟩ => ⟨S2048x1024, .bf16⟩
  | .local _ .vmem, ⟨9, _⟩ => ⟨S1x1024, .f32⟩
  | .local _ .vmem, ⟨10, _⟩ => ⟨S1x1024, .f32⟩
  | .local _ .vmem, ⟨11, _⟩ => ⟨S1024x1024, .f32⟩
  | .local _ .vmem, ⟨12, _⟩ => ⟨S1024x1024, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg3_1 : Ref sig .tc := ⟨.vmem, 12, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc1_sem3_0 : DmaSem sig := 11
abbrev cc1_sem3_1 : DmaSem sig := 12

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S4095x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S4095x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨2, ![8, 4], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage1_0 : Fin 2 → Memref sig .tc .vmem S1024x2048 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S2048x1024 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S1x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![false, true]

abbrev stage1_3 : Fin 2 → Memref sig .tc .vmem S1024x1024 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

class Facts₀ : Prop where
  bitsLt_bf16_f32 : FTy.bits .bf16 < FTy.bits .f32
  shapeCasts_S4096_S1x4096 : S4096.ShapeCasts S1x4096
  inb_S4095x2048_S4095x2048_0_0 : ∀ a, (![0, 0] : Fin 2 → Nat) a + S4095x2048.size a ≤ S4095x2048.size a
  h_S4095x2048 : 0 < S4095x2048.numel
  shapeCasts_S4095x2048_S4095x2048 : S4095x2048.ShapeCasts S4095x2048
  inb_S4095x512_S4095x512_0_0 : ∀ a, (![0, 0] : Fin 2 → Nat) a + S4095x512.size a ≤ S4095x512.size a
  h_S4095x512 : 0 < S4095x512.numel
  shapeCasts_S4095x512_S4095x512 : S4095x512.ShapeCasts S4095x512
  inb_S2048x512_S2048x512_0_0 : ∀ a, (![0, 0] : Fin 2 → Nat) a + S2048x512.size a ≤ S2048x512.size a
  h_S2048x512 : 0 < S2048x512.numel
  packedbf16_S2048x512_S2048x512_0_0 : (Rect.unit (s := S2048x512) ![0, 0] S2048x512.size inb_S2048x512_S2048x512_0_0).PackedRows (EltTy.packing .bf16)
  inb_S1024x2048_S1024x2048_0_0 : ∀ a, (![0, 0] : Fin 2 → Nat) a + S1024x2048.size a ≤ S1024x2048.size a
  h_S1024x2048 : 0 < S1024x2048.numel
  shapeCasts_S1024x2048_S1024x2048 : S1024x2048.ShapeCasts S1024x2048
  inb_S2048x1024_S2048x1024_0_0 : ∀ a, (![0, 0] : Fin 2 → Nat) a + S2048x1024.size a ≤ S2048x1024.size a
  h_S2048x1024 : 0 < S2048x1024.numel
  shapeCasts_S2048x1024_S2048x1024 : S2048x1024.ShapeCasts S2048x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S1024x1024 : S1x1024.Broadcasts S1024x1024
  inb_S1024x1024_S1024x1024_0_0 : ∀ a, (![0, 0] : Fin 2 → Nat) a + S1024x1024.size a ≤ S1024x1024.size a
  h_S1024x1024 : 0 < S1024x1024.numel
  dot_S4095x2048_S4095x512_S2048x512_0_0_1_1_n_n_wf : DotDims.WF S4095x2048 S4095x512 S2048x512 [0] [0] [1] [1] [] []
  dot_S1024x2048_S2048x1024_S1024x1024_1_0_0_1_n_n_wf : DotDims.WF S1024x2048 S2048x1024 S1024x1024 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S4095x2048.size a ≤ S4095x2048.size a
  hwx0_0 : ∀ i : grid0.Coords, EltTy.bits .bf16 = 32 ∨ (Rect.block (s := S4095x2048) S4095x2048.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4095x512.size a ≤ S4095x4096.size a
  hwx0_1 : ∀ i : grid0.Coords, EltTy.bits .bf16 = 32 ∨ (Rect.block (s := S4095x4096) S4095x512.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2048x512.size a ≤ S2048x4096.size a
  hwx0_2 : ∀ i : grid0.Coords, EltTy.bits .bf16 = 32 ∨ (Rect.block (s := S2048x4096) S2048x512.size (cc0_transform_2 i) (hinb0_2 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x2048.size a ≤ S8192x2048.size a
  hwx1_0 : ∀ i : grid1.Coords, EltTy.bits .bf16 = 32 ∨ (Rect.block (s := S8192x2048) S1024x2048.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2048x1024.size a ≤ S2048x4096.size a
  hwx1_1 : ∀ i : grid1.Coords, EltTy.bits .bf16 = 32 ∨ (Rect.block (s := S2048x4096) S2048x1024.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x1024.size a ≤ S1x4096.size a
  hwx1_2 : ∀ i : grid1.Coords, EltTy.bits .f32 = 32 ∨ (Rect.block (s := S1x4096) S1x1024.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1024x1024.size a ≤ S8192x4096.size a
  hwx1_3 : ∀ i : grid1.Coords, EltTy.bits .f32 = 32 ∨ (Rect.block (s := S8192x4096) S1024x1024.size (cc1_transform_3 i) (hinb1_3 i)).WholeWords (EltTy.packing .f32)

variable [Facts₀]

def dot_S4095x2048_S4095x512_S2048x512_0_0_1_1_n_n : DotDims S4095x2048 S4095x512 S2048x512 where
  lhsContracting := [0]
  rhsContracting := [0]
  lhsNonContracting := [1]
  rhsNonContracting := [1]
  lhsBatch := []
  rhsBatch := []
  wf := dot_S4095x2048_S4095x512_S2048x512_0_0_1_1_n_n_wf
def dot_S1024x2048_S2048x1024_S1024x1024_1_0_0_1_n_n : DotDims S1024x2048 S2048x1024 S1024x1024 where
  lhsContracting := [1]
  rhsContracting := [0]
  lhsNonContracting := [0]
  rhsNonContracting := [1]
  lhsBatch := []
  rhsBatch := []
  wf := dot_S1024x2048_S2048x1024_S1024x1024_1_0_0_1_n_n_wf

abbrev win0_0 : Pipeline.Window sig grid0 :=
  Pipeline.Window.ofSpec (Memref.whole main_v0) S4095x2048.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_v1) S4095x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v4) S2048x512.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v2) S1024x2048.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v4) S2048x1024.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v3) S1x1024.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v5) S1024x1024.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S8192x2048 : Shape := ⟨2, ![8192, 2048]⟩
abbrev S4095x2048 : Shape := ⟨2, ![4095, 2048]⟩
abbrev S4096 : Shape := ⟨1, ![4096]⟩
abbrev S4095x4096 : Shape := ⟨2, ![4095, 4096]⟩
abbrev S2048x4096 : Shape := ⟨2, ![2048, 4096]⟩
abbrev S8192x4096 : Shape := ⟨2, ![8192, 4096]⟩
abbrev S1x4096 : Shape := ⟨2, ![1, 4096]⟩

abbrev nBuf : Space → Nat
  | .hbm => 9
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S4095x2048, .f32⟩
  | .hbm, ⟨2, _⟩ => ⟨S4096, .f32⟩
  | .hbm, ⟨3, _⟩ => ⟨S4095x4096, .f32⟩
  | .hbm, ⟨4, _⟩ => ⟨S2048x4096, .f32⟩
  | .hbm, ⟨5, _⟩ => ⟨S8192x4096, .f32⟩
  | .hbm, ⟨6, _⟩ => ⟨S1x4096, .f32⟩
  | .hbm, ⟨7, _⟩ => ⟨S8192x4096, .f32⟩
  | .hbm, ⟨8, _⟩ => ⟨S8192x4096, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩

abbrev nD : Nat := 1
abbrev τ : Topo := Topo.v7x

variable {F : FTy → Type} [FloatOps F]

class Facts₀ : Prop where
  bcast_S4096_S1x4096_1 : S4096.BroadcastsInDim S1x4096 (![1] : Fin 1 → Fin S1x4096.rank)
  bcast_S1x4096_S8192x4096_0_1 : S1x4096.BroadcastsInDim S8192x4096 (![0, 1] : Fin 2 → Fin S8192x4096.rank)
  dot_S4095x2048_S4095x4096_S2048x4096_0_0_1_1_n_n_wf : DotDims.WF S4095x2048 S4095x4096 S2048x4096 [0] [0] [1] [1] [] []
  dot_S8192x2048_S2048x4096_S8192x4096_1_0_0_1_n_n_wf : DotDims.WF S8192x2048 S2048x4096 S8192x4096 [1] [0] [0] [1] [] []

variable [Facts₀]

def dot_S4095x2048_S4095x4096_S2048x4096_0_0_1_1_n_n : DotDims S4095x2048 S4095x4096 S2048x4096 where
  lhsContracting := [0]
  rhsContracting := [0]
  lhsNonContracting := [1]
  rhsNonContracting := [1]
  lhsBatch := []
  rhsBatch := []
  wf := dot_S4095x2048_S4095x4096_S2048x4096_0_0_1_1_n_n_wf
def dot_S8192x2048_S2048x4096_S8192x4096_1_0_0_1_n_n : DotDims S8192x2048 S2048x4096 S8192x4096 where
  lhsContracting := [1]
  rhsContracting := [0]
  lhsNonContracting := [0]
  rhsNonContracting := [1]
  lhsBatch := []
  rhsBatch := []
  wf := dot_S8192x2048_S2048x4096_S8192x4096_1_0_0_1_n_n_wf

class Facts : Prop extends Facts₀ where

variable [Facts]
-- ==== Proof.Payload.lean ====
/-
  What each of the two kernel bodies stores, read at one entry of its block, over the extended reals.

  The first body stores the product of its two loaded blocks contracted over their common FIRST axis (the
  4095 tree nodes): entry (d, n) of the stored 2048 × 512 block is ∑ k, a (k, d) · s (k, n). The change of
  float format applied to the product is the identity on extended reals, and the accumulator is zero.

  The second body stores the ordinary product of a 1024 × 2048 block with a 2048 × 1024 block, plus a
  1 × 1024 row repeated down the 1024 rows: entry (r, q) is (∑ d, x (r, d) · w (d, q)) + b (0, q).
-/
import proofs.«162029_j13554916786432_1_alg».proof.Proof.Gen.KernelIdeal.Skeleton
import Idealize.ShloMosaic.Lib.ValueIdx
import Idealize.ShloMosaic.Lib.Pipeline.Value
import Idealize.ShloMosaic.PureOps.Ideal.Laws

noncomputable section

open scoped BigOperators

namespace Cert.KernelIdeal.Bridge

open Cert.KernelIdeal Cert.KernelIdeal.Gen Idealize.ShloMosaic Idealize.ShloMosaic.TcCoe Idealize.ShloMosaic.ValueIdx

/-! ## The first body: columns against columns -/

theorem lhs_dW_0 (i : S2048x512.Idx) (q : dot_S4095x2048_S4095x512_S2048x512_0_0_1_1_n_n.contr.Idx) :
    (dot_S4095x2048_S4095x512_S2048x512_0_0_1_1_n_n.lhsIdx i q 0).val = (q ⟨0, by decide⟩).val :=
  dot_S4095x2048_S4095x512_S2048x512_0_0_1_1_n_n.lhsIdx_val_of_single rfl i q
theorem lhs_dW_1 (i : S2048x512.Idx) (q : dot_S4095x2048_S4095x512_S2048x512_0_0_1_1_n_n.contr.Idx) :
    (dot_S4095x2048_S4095x512_S2048x512_0_0_1_1_n_n.lhsIdx i q 1).val = (i 0).val := by
  unfold DotDims.lhsIdx
  rw [dif_neg (show ¬(1 : Fin S4095x2048.rank) ∈ dot_S4095x2048_S4095x512_S2048x512_0_0_1_1_n_n.lhsBatch by decide), dif_pos (show (1 : Fin S4095x2048.rank) ∈ dot_S4095x2048_S4095x512_S2048x512_0_0_1_1_n_n.lhsNonContracting by decide)]
  rfl
theorem rhs_dW_0 (i : S2048x512.Idx) (q : dot_S4095x2048_S4095x512_S2048x512_0_0_1_1_n_n.contr.Idx) :
    (dot_S4095x2048_S4095x512_S2048x512_0_0_1_1_n_n.rhsIdx i q 0).val = (q ⟨0, by decide⟩).val :=
  dot_S4095x2048_S4095x512_S2048x512_0_0_1_1_n_n.rhsIdx_val_of_single rfl i q
theorem rhs_dW_1 (i : S2048x512.Idx) (q : dot_S4095x2048_S4095x512_S2048x512_0_0_1_1_n_n.contr.Idx) :
    (dot_S4095x2048_S4095x512_S2048x512_0_0_1_1_n_n.rhsIdx i q 1).val = (i 1).val := by
  unfold DotDims.rhsIdx
  rw [dif_neg (show ¬(1 : Fin S4095x512.rank) ∈ dot_S4095x2048_S4095x512_S2048x512_0_0_1_1_n_n.rhsBatch by decide), dif_pos (show (1 : Fin S4095x512.rank) ∈ dot_S4095x2048_S4095x512_S2048x512_0_0_1_1_n_n.rhsNonContracting by decide)]
  rfl

/-- Entry (d, n) of what the first body stores: column `d` of its first block against column `n` of its second. -/
theorem wPayload_apply (a : FVec Ideal S4095x2048 .bf16) (s : FVec Ideal S4095x512 .bf16) (d : Fin 2048) (n : Fin 512) :
    k0_pay1 (F := Ideal) a s (ix2 d n) = ∑ k : Fin 4095, a (ix2 k d) * s (ix2 k n) := by
  unfold k0_pay1
  rw [shapeCast_self, shapeCast_self]
  show FloatOps.matmul dot_S4095x2048_S4095x512_S2048x512_0_0_1_1_n_n none a s (constant S2048x512 .f32 0x00000000#32) (ix2 d n) = _
  rw [Ideal.matmul_constant_zero_apply, ← Equiv.sum_comp (ValueIdx.contrEquiv1 dot_S4095x2048_S4095x512_S2048x512_0_0_1_1_n_n 4095 rfl rfl).symm]
  refine Finset.sum_congr rfl fun k _ => ?_
  have hk := ValueIdx.contrEquiv1_symm_val dot_S4095x2048_S4095x512_S2048x512_0_0_1_1_n_n 4095 rfl rfl k
  have el : dot_S4095x2048_S4095x512_S2048x512_0_0_1_1_n_n.lhsIdx (ix2 d n) ((ValueIdx.contrEquiv1 dot_S4095x2048_S4095x512_S2048x512_0_0_1_1_n_n 4095 rfl rfl).symm k) = ix2 k d := funext fun ax => Fin.ext (by
    match ax with
    | ⟨0, _⟩ => exact (lhs_dW_0 _ _).trans hk
    | ⟨1, _⟩ => exact lhs_dW_1 _ _)
  have er : dot_S4095x2048_S4095x512_S2048x512_0_0_1_1_n_n.rhsIdx (ix2 d n) ((ValueIdx.contrEquiv1 dot_S4095x2048_S4095x512_S2048x512_0_0_1_1_n_n 4095 rfl rfl).symm k) = ix2 k n := funext fun ax => Fin.ext (by
    match ax with
    | ⟨0, _⟩ => exact (rhs_dW_0 _ _).trans hk
    | ⟨1, _⟩ => exact rhs_dW_1 _ _)
  rw [el, er]

/-! ## The second body: rows against columns, plus a repeated row -/

theorem lhs_dX_0 (i : S1024x1024.Idx) (q : dot_S1024x2048_S2048x1024_S1024x1024_1_0_0_1_n_n.contr.Idx) :
    (dot_S1024x2048_S2048x1024_S1024x1024_1_0_0_1_n_n.lhsIdx i q 0).val = (i 0).val := by
  unfold DotDims.lhsIdx
  rw [dif_neg (show ¬(0 : Fin S1024x2048.rank) ∈ dot_S1024x2048_S2048x1024_S1024x1024_1_0_0_1_n_n.lhsBatch by decide), dif_pos (show (0 : Fin S1024x2048.rank) ∈ dot_S1024x2048_S2048x1024_S1024x1024_1_0_0_1_n_n.lhsNonContracting by decide)]
  rfl
theorem lhs_dX_1 (i : S1024x1024.Idx) (q : dot_S1024x2048_S2048x1024_S1024x1024_1_0_0_1_n_n.contr.Idx) :
    (dot_S1024x2048_S2048x1024_S1024x1024_1_0_0_1_n_n.lhsIdx i q 1).val = (q ⟨0, by decide⟩).val :=
  dot_S1024x2048_S2048x1024_S1024x1024_1_0_0_1_n_n.lhsIdx_val_of_single rfl i q
theorem rhs_dX_0 (i : S1024x1024.Idx) (q : dot_S1024x2048_S2048x1024_S1024x1024_1_0_0_1_n_n.contr.Idx) :
    (dot_S1024x2048_S2048x1024_S1024x1024_1_0_0_1_n_n.rhsIdx i q 0).val = (q ⟨0, by decide⟩).val :=
  dot_S1024x2048_S2048x1024_S1024x1024_1_0_0_1_n_n.rhsIdx_val_of_single rfl i q
theorem rhs_dX_1 (i : S1024x1024.Idx) (q : dot_S1024x2048_S2048x1024_S1024x1024_1_0_0_1_n_n.contr.Idx) :
    (dot_S1024x2048_S2048x1024_S1024x1024_1_0_0_1_n_n.rhsIdx i q 1).val = (i 1).val := by
  unfold DotDims.rhsIdx
  rw [dif_neg (show ¬(1 : Fin S2048x1024.rank) ∈ dot_S1024x2048_S2048x1024_S1024x1024_1_0_0_1_n_n.rhsBatch by decide), dif_pos (show (1 : Fin S2048x1024.rank) ∈ dot_S1024x2048_S2048x1024_S1024x1024_1_0_0_1_n_n.rhsNonContracting by decide)]
  rfl

/-- The product part of the second body at entry (r, q): row `r` against column `q`. -/
theorem xProduct_apply (x : FVec Ideal S1024x2048 .bf16) (w : FVec Ideal S2048x1024 .bf16) (r : Fin 1024) (q : Fin 1024) :
    FloatOps.matmul dot_S1024x2048_S2048x1024_S1024x1024_1_0_0_1_n_n none x w (constant S1024x1024 .f32 0x00000000#32) (ix2 r q)
      = ∑ d : Fin 2048, x (ix2 r d) * w (ix2 d q) := by
  rw [Ideal.matmul_constant_zero_apply, ← Equiv.sum_comp (ValueIdx.contrEquiv1 dot_S1024x2048_S2048x1024_S1024x1024_1_0_0_1_n_n 2048 rfl rfl).symm]
  refine Finset.sum_congr rfl fun k _ => ?_
  have hk := ValueIdx.contrEquiv1_symm_val dot_S1024x2048_S2048x1024_S1024x1024_1_0_0_1_n_n 2048 rfl rfl k
  have el : dot_S1024x2048_S2048x1024_S1024x1024_1_0_0_1_n_n.lhsIdx (ix2 r q) ((ValueIdx.contrEquiv1 dot_S1024x2048_S2048x1024_S1024x1024_1_0_0_1_n_n 2048 rfl rfl).symm k) = ix2 r k := funext fun ax => Fin.ext (by
    match ax with
    | ⟨0, _⟩ => exact lhs_dX_0 _ _
    | ⟨1, _⟩ => exact (lhs_dX_1 _ _).trans hk)
  have er : dot_S1024x2048_S2048x1024_S1024x1024_1_0_0_1_n_n.rhsIdx (ix2 r q) ((ValueIdx.contrEquiv1 dot_S1024x2048_S2048x1024_S1024x1024_1_0_0_1_n_n 2048 rfl rfl).symm k) = ix2 k q := funext fun ax => Fin.ext (by
    match ax with
    | ⟨0, _⟩ => exact (rhs_dX_0 _ _).trans hk
    | ⟨1, _⟩ => exact rhs_dX_1 _ _)
  rw [el, er]

/-- The repeated row at entry (r, q) is the row's entry (0, q). -/
theorem rowRepeat_apply (b : FVec Ideal S1x1024 .f32) (r : Fin 1024) (q : Fin 1024) :
    broadcastTo S1024x1024 b broadcasts_S1x1024_S1024x1024 (ix2 r q) = b (ix2 0 q) :=
  broadcastTo_apply b broadcasts_S1x1024_S1024x1024 (ix2 r q) (ix2 0 q) (fun ax => match ax with
    | ⟨0, _⟩ => by show (0 : Nat) = if (1 : Nat) = 1 then 0 else r.val; rw [if_pos rfl]
    | ⟨1, _⟩ => by show q.val = if (1024 : Nat) = 1 then 0 else q.val; rw [if_neg (by decide)])

/-- Entry (r, q) of what the second body stores. -/
theorem xPayload_apply (x : FVec Ideal S1024x2048 .bf16) (w : FVec Ideal S2048x1024 .bf16) (b : FVec Ideal S1x1024 .f32)
    (r : Fin 1024) (q : Fin 1024) :
    k1_pay1 (F := Ideal) x w b (ix2 r q) = (∑ d : Fin 2048, x (ix2 r d) * w (ix2 d q)) + b (ix2 0 q) := by
  unfold k1_pay1
  rw [shapeCast_self, shapeCast_self, shapeCast_self]
  show FloatOps.matmul dot_S1024x2048_S2048x1024_S1024x1024_1_0_0_1_n_n none x w (constant S1024x1024 .f32 0x00000000#32) (ix2 r q)
      + broadcastTo S1024x1024 b broadcasts_S1x1024_S1024x1024 (ix2 r q) = _
  rw [xProduct_apply, rowRepeat_apply]

end Cert.KernelIdeal.Bridge

end
-- ==== Proof.Spec.lean ====
/-
  What both programs compute, over the extended reals. With `nrm` the 4095 × 2048 matrix of node normals,
  `sg` the 4095 × 4096 matrix of path signs, `x` the 8192 × 2048 matrix of tokens and `b` the 4096 leaf biases:

    weight d n  = ∑ k < 4095, nrm (k, d) · sg (k, n)            -- column d of the normals against column n of the signs
    logits t n  = (∑ d < 2048, x (t, d) · weight d n) + b n     -- row t of the tokens against column n of the weight

  Both sums are taken in the order of the contracted index, so no law of the extended reals is needed to
  compare the two programs: each is this nested sum, read index by index.
-/
import Idealize.ShloMosaic.Lib.ValueIdx
import Idealize.ShloMosaic.PureOps.Ideal

noncomputable section

open scoped BigOperators

namespace Cert.TreeLogits

open Idealize.ShloMosaic Idealize.ShloMosaic.ValueIdx

/-- An `r × s` matrix of extended reals, as a function of its rank-2 index. -/
abbrev Mat (r s : ℕ) : Type := (⟨2, ![r, s]⟩ : Shape).Idx → EReal

/-- Column `d` of `nrm` against column `n` of `sg`, over their common 4095 rows. -/
def weight (nrm : Mat 4095 2048) (sg : Mat 4095 4096) (d : Fin 2048) (n : Fin 4096) : EReal :=
  ∑ k : Fin 4095, nrm (ix2 k d) * sg (ix2 k n)

/-- The combined weight as a 2048 × 4096 matrix. -/
def weightMat (nrm : Mat 4095 2048) (sg : Mat 4095 4096) : Mat 2048 4096 :=
  fun j => weight nrm sg (j 0) (j 1)

/-- Row `t` of `x` against column `n` of a 2048 × 4096 matrix `w`, plus the bias of leaf `n`. -/
def affine (x : Mat 8192 2048) (w : Mat 2048 4096) (b : (⟨2, ![1, 4096]⟩ : Shape).Idx → EReal)
    (t : Fin 8192) (n : Fin 4096) : EReal :=
  (∑ d : Fin 2048, x (ix2 t d) * w (ix2 d n)) + b (ix2 0 n)

/-- The affine map as an 8192 × 4096 matrix; the bias is carried as a 1 × 4096 row. -/
def affineMat (x : Mat 8192 2048) (w : Mat 2048 4096) (b : (⟨2, ![1, 4096]⟩ : Shape).Idx → EReal) : Mat 8192 4096 :=
  fun i => affine x w b (i 0) (i 1)

/-- The 4096 leaf biases laid out as one row of a 1 × 4096 matrix. -/
def biasRow (b : (⟨1, ![4096]⟩ : Shape).Idx → EReal) : (⟨2, ![1, 4096]⟩ : Shape).Idx → EReal :=
  fun i => b (ix1 (i 1))

/-- THE RESULT: tokens against the combined weight of normals and signs, plus the leaf biases. -/
def logits (x : Mat 8192 2048) (nrm : Mat 4095 2048) (b : (⟨1, ![4096]⟩ : Shape).Idx → EReal) (sg : Mat 4095 4096) :
    Mat 8192 4096 :=
  affineMat x (weightMat nrm sg) (biasRow b)

theorem logits_apply (x : Mat 8192 2048) (nrm : Mat 4095 2048) (b : (⟨1, ![4096]⟩ : Shape).Idx → EReal) (sg : Mat 4095 4096)
    (t : Fin 8192) (n : Fin 4096) :
    logits x nrm b sg (ix2 t n)
      = (∑ d : Fin 2048, x (ix2 t d) * ∑ k : Fin 4095, nrm (ix2 k d) * sg (ix2 k n)) + b (ix1 n) := rfl

theorem weightMat_apply (nrm : Mat 4095 2048) (sg : Mat 4095 4096) (d : Fin 2048) (n : Fin 4096) :
    weightMat nrm sg (ix2 d n) = ∑ k : Fin 4095, nrm (ix2 k d) * sg (ix2 k n) := rfl

theorem affineMat_apply (x : Mat 8192 2048) (w : Mat 2048 4096) (b : (⟨2, ![1, 4096]⟩ : Shape).Idx → EReal)
    (t : Fin 8192) (n : Fin 4096) :
    affineMat x w b (ix2 t n) = (∑ d : Fin 2048, x (ix2 t d) * w (ix2 d n)) + b (ix2 0 n) := rfl

end Cert.TreeLogits

end
-- ==== Proof.RegionW.lean ====
/-
  The first pallas_call, as one array. Its grid has 8 points; point t reads the whole 4095 × 2048 matrix of
  normals and the 4095 × 512 block of sign columns [512 t, 512 t + 512), and writes the 2048 × 512 block of the
  same columns of the weight. What point t writes is therefore block t of ONE matrix, the combined weight
  `weightMat` of the two arrays the region finds, and the 8 blocks tile the 2048 × 4096 array: after the region
  the array holds `weightMat`. Stated at any contents `V` the region may be entered with.
-/
import proofs.«162029_j13554916786432_1_alg».proof.Proof.Gen.KernelIdeal.Frame
import proofs.«162029_j13554916786432_1_alg».proof.Proof.Payload
import proofs.«162029_j13554916786432_1_alg».proof.Proof.Spec
import Idealize.ShloMosaic.Lib.Pipeline.Value

set_option maxRecDepth 16384

noncomputable section

open scoped BigOperators

namespace Cert.KernelIdeal.Bridge

open Cert.KernelIdeal Cert.KernelIdeal.Gen Idealize.ShloMosaic Idealize.ShloMosaic.TcCoe Idealize.ShloMosaic.ValueIdx
open Idealize.SL.Sem Cert.TreeLogits

variable (V : (c : Dev nD) → (b : Ref sig .tc) → Buf (Elt Ideal) ((c : Thread nD τ).loc b))

theorem zeroOffsets : (![0, 0] : Fin 2 → Nat) = fun _ => 0 := funext fun a => by fin_cases a <;> rfl

/-- The three index maps over the 8 grid points: the normals' block is always block (0, 0); the sign block and the
    weight block are block (0, t). -/
theorem wIndex : ∀ t : Fin cfg0.N, win0_0.index t (0 : Fin 2) = 0 ∧ win0_0.index t (1 : Fin 2) = 0
    ∧ win0_1.index t (0 : Fin 2) = 0 ∧ win0_1.index t (1 : Fin 2) = t.val
    ∧ win0_2.index t (0 : Fin 2) = 0 ∧ win0_2.index t (1 : Fin 2) = t.val :=
  (by decide +kernel : ∀ t : Fin grid0.N, _)

/-- What point `t` writes back is block `t` of the combined weight of the arrays the region finds. -/
theorem wFlushed (c : Dev nD) (t : Fin cfg0.N) :
    (dat0 (F := Ideal) V c).flushed 2 t
      = ((cfg0.win 2).blk t).view.read (Elt Ideal) (weightMat (V c main_v0) (V c main_v1)) := by
  show (cfg0.win 2).cut (grid0.coords t) ((dat0 (F := Ideal) V c).after 2 t) = _
  rw [after0_2]
  unfold out0_2
  rw [View.canon_unit_zero zeroOffsets]
  simp only [View.ld_unit_zero (S := S4095x2048) zeroOffsets, View.ld_unit_zero (S := S4095x512) zeroOffsets]
  obtain ⟨e00, e01, e10, e11, e20, e21⟩ := wIndex t
  funext j
  obtain ⟨d, n, rfl⟩ : ∃ (d : Fin 2048) (n : Fin 512), j = ix2 d n := ⟨j 0, j 1, eq_ix2 j⟩
  show k0_pay1 (F := Ideal) (iblk0 V c 0 t) (iblk0 V c 1 t) (ix2 d n)
      = weightMat (V c main_v0) (V c main_v1) (((cfg0.win 2).blk t).view.emb (ix2 d n))
  refine (wPayload_apply _ _ d n).trans ?_
  have ht : t.val < 8 := t.isLt
  have he : ((cfg0.win 2).blk t).view.emb (ix2 d n) = ix2 d (⟨t.val * 512 + n.val, by omega⟩ : Fin 4096) := by
    funext ax; apply Fin.ext
    match ax with
    | ⟨0, _⟩ => show win0_2.index t (0 : Fin 2) * 2048 + 1 * d.val = d.val; omega
    | ⟨1, _⟩ => show win0_2.index t (1 : Fin 2) * 512 + 1 * n.val = t.val * 512 + n.val; omega
  rw [he, weightMat_apply]
  refine Finset.sum_congr rfl fun k _ => ?_
  have h0 : iblk0 V c 0 t (ix2 k d) = V c main_v0 (ix2 k d) := by
    show V c main_v0 (((cfg0.win 0).blk t).view.emb (ix2 k d)) = _
    refine congrArg _ (funext fun ax => Fin.ext ?_)
    match ax with
    | ⟨0, _⟩ => show win0_0.index t (0 : Fin 2) * 4095 + 1 * k.val = k.val; omega
    | ⟨1, _⟩ => show win0_0.index t (1 : Fin 2) * 2048 + 1 * d.val = d.val; omega
  have h1 : iblk0 V c 1 t (ix2 k n) = V c main_v1 (ix2 k (⟨t.val * 512 + n.val, by omega⟩ : Fin 4096)) := by
    show V c main_v1 (((cfg0.win 1).blk t).view.emb (ix2 k n)) = _
    refine congrArg _ (funext fun ax => Fin.ext ?_)
    match ax with
    | ⟨0, _⟩ => show win0_1.index t (0 : Fin 2) * 4095 + 1 * k.val = k.val; omega
    | ⟨1, _⟩ => show win0_1.index t (1 : Fin 2) * 512 + 1 * n.val = t.val * 512 + n.val; omega
  exact congrArg₂ (· * ·) h0 h1

/-- An index of the weight array is in point `t`'s block iff each coordinate is in the block's range on its axis. -/
theorem mem_wBlock (t : Fin cfg0.N) (i : S2048x4096.Idx) :
    i ∈ ((cfg0.win 2).blk t).view.set ↔ ∀ a : Fin 2, win0_2.index t a * S2048x512.size a ≤ (i a).val
      ∧ (i a).val < win0_2.index t a * S2048x512.size a + S2048x512.size a := by
  show i ∈ ((View.whole main_v4).slice (win0_2.rect t)).set ↔ _
  rw [View.set_slice_whole, Rect.mem_set_unit]
  exact Iff.rfl

/-- Column `n` of the weight array lies in the block of point `n / 512`: the 8 blocks tile the array. -/
theorem wCover (i : S2048x4096.Idx) :
    ∃ t : Fin cfg0.N, (cfg0.win 2).flush t = true ∧ i ∈ ((cfg0.win 2).blk t).view.set := by
  have hi0 : (i 0).val < 2048 := (i 0).isLt
  have hi1 : (i 1).val < 4096 := (i 1).isLt
  have hq : (i 1).val / 512 < cfg0.N := by show _ < 8; omega
  obtain ⟨t, ht⟩ : ∃ t : Fin cfg0.N, t.val = (i 1).val / 512 := ⟨⟨(i 1).val / 512, hq⟩, rfl⟩
  refine ⟨t, flush0_2 t, ?_⟩
  obtain ⟨-, -, -, -, e20, e21⟩ := wIndex t
  rw [mem_wBlock]
  intro a
  match a with
  | ⟨0, _⟩ =>
    show win0_2.index t (0 : Fin 2) * 2048 ≤ (i 0).val ∧ (i 0).val < win0_2.index t (0 : Fin 2) * 2048 + 2048
    omega
  | ⟨1, _⟩ =>
    show win0_2.index t (1 : Fin 2) * 512 ≤ (i 1).val ∧ (i 1).val < win0_2.index t (1 : Fin 2) * 512 + 512
    omega

/-- After the first pallas_call the weight array holds the combined weight of the two arrays it was entered with. -/
theorem wFinal (c : Dev nD) :
    (dat0 (F := Ideal) V c).arrAt 2 cfg0.N = weightMat (V c main_v0) (V c main_v1) :=
  (dat0 (F := Ideal) V c).arrAt_eq_of_cover 2 _ (fun t _ => wFlushed V c t) wCover

end Cert.KernelIdeal.Bridge

end
-- ==== Proof.RegionX.lean ====
/-
  The second pallas_call, as one array. Its grid is 8 × 4; the point with block coordinates (I, J) reads the
  1024 × 2048 block of token rows [1024 I, 1024 I + 1024), the 2048 × 1024 block of weight columns
  [1024 J, 1024 J + 1024) and the 1 × 1024 block of the same bias columns, and writes the 1024 × 1024 block (I, J) of
  the result. What a point writes is therefore its block of ONE matrix, `affineMat` of the three arrays the region
  finds (every row of tokens against every column of the weight, plus that column's bias), and the 32 blocks tile
  the 8192 × 4096 result. Stated at any contents `V` the region may be entered with.
-/
import proofs.«162029_j13554916786432_1_alg».proof.Proof.Gen.KernelIdeal.Frame
import proofs.«162029_j13554916786432_1_alg».proof.Proof.Payload
import proofs.«162029_j13554916786432_1_alg».proof.Proof.Spec
import Idealize.ShloMosaic.Lib.Pipeline.Value

set_option maxRecDepth 16384

noncomputable section

open scoped BigOperators

namespace Cert.KernelIdeal.Bridge

open Cert.KernelIdeal Cert.KernelIdeal.Gen Idealize.ShloMosaic Idealize.ShloMosaic.TcCoe Idealize.ShloMosaic.ValueIdx
open Idealize.SL.Sem Cert.TreeLogits

variable (V : (c : Dev nD) → (b : Ref sig .tc) → Buf (Elt Ideal) ((c : Thread nD τ).loc b))

theorem zeroOffsetsX : (![0, 0] : Fin 2 → Nat) = fun _ => 0 := funext fun a => by fin_cases a <;> rfl

/-- The four index maps over the 32 grid points, against the result's block coordinates (I, J): the token block is
    (I, 0), the weight block and the bias block are (0, J); I < 8 and J < 4. -/
theorem xIndex : ∀ t : Fin cfg1.N, win1_0.index t (0 : Fin 2) = win1_3.index t (0 : Fin 2) ∧ win1_0.index t (1 : Fin 2) = 0
    ∧ win1_1.index t (0 : Fin 2) = 0 ∧ win1_1.index t (1 : Fin 2) = win1_3.index t (1 : Fin 2)
    ∧ win1_2.index t (0 : Fin 2) = 0 ∧ win1_2.index t (1 : Fin 2) = win1_3.index t (1 : Fin 2)
    ∧ win1_3.index t (0 : Fin 2) ≤ 7 ∧ win1_3.index t (1 : Fin 2) ≤ 3 :=
  (by decide +kernel : ∀ t : Fin grid1.N, _)

/-- Every block (I, J) of the result is some point's. -/
theorem xOnto : ∀ (I : Fin 8) (J : Fin 4), ∃ t : Fin cfg1.N, win1_3.index t = ![I.val, J.val] :=
  (by decide +kernel : ∀ (I : Fin 8) (J : Fin 4), ∃ t : Fin grid1.N, win1_3.index t = ![I.val, J.val])

/-- What point `t` writes back is block `t` of the affine map of the arrays the region finds. -/
theorem xFlushed (c : Dev nD) (t : Fin cfg1.N) :
    (dat1 (F := Ideal) V c).flushed 3 t
      = ((cfg1.win 3).blk t).view.read (Elt Ideal) (affineMat (V c main_v2) (V c main_v4) (V c main_v3)) := by
  show (cfg1.win 3).cut (grid1.coords t) ((dat1 (F := Ideal) V c).after 3 t) = _
  rw [after1_3]
  unfold out1_3
  rw [View.canon_unit_zero zeroOffsetsX]
  simp only [View.ld_unit_zero (S := S1024x2048) zeroOffsetsX, View.ld_unit_zero (S := S2048x1024) zeroOffsetsX,
    View.ld_unit_zero (S := S1x1024) zeroOffsetsX]
  obtain ⟨e00, e01, e10, e11, e20, e21, bI, bJ⟩ := xIndex t
  obtain ⟨I, hI⟩ : ∃ I : ℕ, win1_3.index t (0 : Fin 2) = I := ⟨_, rfl⟩
  obtain ⟨J, hJ⟩ : ∃ J : ℕ, win1_3.index t (1 : Fin 2) = J := ⟨_, rfl⟩
  funext j
  obtain ⟨r, q, rfl⟩ : ∃ (r : Fin 1024) (q : Fin 1024), j = ix2 r q := ⟨j 0, j 1, eq_ix2 j⟩
  show k1_pay1 (F := Ideal) (iblk1 V c 0 t) (iblk1 V c 1 t) (iblk1 V c 2 t) (ix2 r q)
      = affineMat (V c main_v2) (V c main_v4) (V c main_v3) (((cfg1.win 3).blk t).view.emb (ix2 r q))
  refine (xPayload_apply _ _ _ r q).trans ?_
  have he : ((cfg1.win 3).blk t).view.emb (ix2 r q)
      = ix2 (⟨I * 1024 + r.val, by omega⟩ : Fin 8192) (⟨J * 1024 + q.val, by omega⟩ : Fin 4096) := by
    funext ax; apply Fin.ext
    match ax with
    | ⟨0, _⟩ => show win1_3.index t (0 : Fin 2) * 1024 + 1 * r.val = I * 1024 + r.val; omega
    | ⟨1, _⟩ => show win1_3.index t (1 : Fin 2) * 1024 + 1 * q.val = J * 1024 + q.val; omega
  rw [he, affineMat_apply]
  have hb : iblk1 V c 2 t (ix2 0 q) = V c main_v3 (ix2 0 (⟨J * 1024 + q.val, by omega⟩ : Fin 4096)) := by
    show V c main_v3 (((cfg1.win 2).blk t).view.emb (ix2 0 q)) = _
    refine congrArg _ (funext fun ax => Fin.ext ?_)
    match ax with
    | ⟨0, _⟩ => show win1_2.index t (0 : Fin 2) * 1 + 1 * 0 = 0; omega
    | ⟨1, _⟩ => show win1_2.index t (1 : Fin 2) * 1024 + 1 * q.val = J * 1024 + q.val; omega
  refine congrArg₂ (· + ·) (Finset.sum_congr rfl fun d _ => ?_) hb
  have hx : iblk1 V c 0 t (ix2 r d) = V c main_v2 (ix2 (⟨I * 1024 + r.val, by omega⟩ : Fin 8192) d) := by
    show V c main_v2 (((cfg1.win 0).blk t).view.emb (ix2 r d)) = _
    refine congrArg _ (funext fun ax => Fin.ext ?_)
    match ax with
    | ⟨0, _⟩ => show win1_0.index t (0 : Fin 2) * 1024 + 1 * r.val = I * 1024 + r.val; omega
    | ⟨1, _⟩ => show win1_0.index t (1 : Fin 2) * 2048 + 1 * d.val = d.val; omega
  have hw : iblk1 V c 1 t (ix2 d q) = V c main_v4 (ix2 d (⟨J * 1024 + q.val, by omega⟩ : Fin 4096)) := by
    show V c main_v4 (((cfg1.win 1).blk t).view.emb (ix2 d q)) = _
    refine congrArg _ (funext fun ax => Fin.ext ?_)
    match ax with
    | ⟨0, _⟩ => show win1_1.index t (0 : Fin 2) * 2048 + 1 * d.val = d.val; omega
    | ⟨1, _⟩ => show win1_1.index t (1 : Fin 2) * 1024 + 1 * q.val = J * 1024 + q.val; omega
  exact congrArg₂ (· * ·) hx hw

/-- An index of the result is in point `t`'s block iff each coordinate is in the block's range on its axis. -/
theorem mem_xBlock (t : Fin cfg1.N) (i : S8192x4096.Idx) :
    i ∈ ((cfg1.win 3).blk t).view.set ↔ ∀ a : Fin 2, win1_3.index t a * S1024x1024.size a ≤ (i a).val
      ∧ (i a).val < win1_3.index t a * S1024x1024.size a + S1024x1024.size a := by
  show i ∈ ((View.whole main_v5).slice (win1_3.rect t)).set ↔ _
  rw [View.set_slice_whole, Rect.mem_set_unit]
  exact Iff.rfl

/-- Entry (t, n) of the result lies in block (t / 1024, n / 1024): the 32 blocks tile the array. -/
theorem xCover (i : S8192x4096.Idx) :
    ∃ t : Fin cfg1.N, (cfg1.win 3).flush t = true ∧ i ∈ ((cfg1.win 3).blk t).view.set := by
  have hi0 : (i 0).val < 8192 := (i 0).isLt
  have hi1 : (i 1).val < 4096 := (i 1).isLt
  obtain ⟨t, ht⟩ := xOnto ⟨(i 0).val / 1024, by omega⟩ ⟨(i 1).val / 1024, by omega⟩
  have q0 : win1_3.index t (0 : Fin 2) = (i 0).val / 1024 := congrFun ht 0
  have q1 : win1_3.index t (1 : Fin 2) = (i 1).val / 1024 := congrFun ht 1
  refine ⟨t, flush1_3 t, ?_⟩
  rw [mem_xBlock]
  intro a
  match a with
  | ⟨0, _⟩ =>
    show win1_3.index t (0 : Fin 2) * 1024 ≤ (i 0).val ∧ (i 0).val < win1_3.index t (0 : Fin 2) * 1024 + 1024
    omega
  | ⟨1, _⟩ =>
    show win1_3.index t (1 : Fin 2) * 1024 ≤ (i 1).val ∧ (i 1).val < win1_3.index t (1 : Fin 2) * 1024 + 1024
    omega

/-- After the second pallas_call the result array holds the affine map of the three arrays it was entered with. -/
theorem xFinal (c : Dev nD) :
    (dat1 (F := Ideal) V c).arrAt 3 cfg1.N = affineMat (V c main_v2) (V c main_v4) (V c main_v3) :=
  (dat1 (F := Ideal) V c).arrAt_eq_of_cover 3 _ (fun t _ => xFlushed V c t) xCover

end Cert.KernelIdeal.Bridge

end
-- ==== Proof.KernelValue.lean ====
/-
  The kernel program's result, as one function of its four argument arrays.

  Before the first pallas_call the host narrows the float format of the normals, the signs and the tokens (the
  identity on extended reals) and lays the 4096 biases out as a 1 × 4096 row. The first pallas_call leaves the
  combined weight of normals and signs in its output array; nothing else it touches changes. The second reads the
  tokens, that weight and the bias row, and leaves their affine map in the result array: `logits`.
-/
import proofs.«162029_j13554916786432_1_alg».proof.Proof.RegionW
import proofs.«162029_j13554916786432_1_alg».proof.Proof.RegionX
import Idealize.ShloMosaic.Lib.StableHlo.Run

set_option maxRecDepth 16384

noncomputable section

open scoped BigOperators

namespace Cert.KernelIdeal.Bridge

open Cert.KernelIdeal Cert.KernelIdeal.Gen Idealize.ShloMosaic Idealize.ShloMosaic.TcCoe Idealize.ShloMosaic.ValueIdx
open Idealize.SL.Sem Idealize.ShloMosaic.StableHlo Cert.TreeLogits

variable (m : (ℓ : Loc nD τ sig) → Buf (Elt Ideal) ℓ) (ρ : Dev nD → PrngReg)

/-! ## The host stretch before the first pallas_call -/

/-- The narrowed normals are the normals. -/
theorem staged_normals (c : Dev nD) :
    (V1 m ρ c main_v0 : S4095x2048.Idx → EReal) = m ((c : Thread nD τ).loc main_arg1) := by
  show StableHlo.after hostOps0 (W0 m ρ c) (Proc.devRef .tc main_v0) = _
  after_results
  rfl

/-- The narrowed signs are the signs. -/
theorem staged_signs (c : Dev nD) :
    (V1 m ρ c main_v1 : S4095x4096.Idx → EReal) = m ((c : Thread nD τ).loc main_arg3) := by
  show StableHlo.after hostOps0 (W0 m ρ c) (Proc.devRef .tc main_v1) = _
  after_results
  rfl

/-- The narrowed tokens are the tokens. -/
theorem staged_tokens (c : Dev nD) :
    (V1 m ρ c main_v2 : S8192x2048.Idx → EReal) = m ((c : Thread nD τ).loc main_arg0) := by
  show StableHlo.after hostOps0 (W0 m ρ c) (Proc.devRef .tc main_v2) = _
  after_results
  rfl

/-- The biases reshaped to 1 × 4096 are the bias row: entry (0, n) has row-major position n. -/
theorem staged_bias (c : Dev nD) :
    (V1 m ρ c main_v3 : S1x4096.Idx → EReal) = biasRow (m ((c : Thread nD τ).loc main_arg2)) := by
  show StableHlo.after hostOps0 (W0 m ρ c) (Proc.devRef .tc main_v3) = _
  after_results
  funext i
  refine shapeCast_apply _ shapeCasts_S4096_S1x4096 i (ix1 (i 1)) ?_
  rw [Shape.rowMajor_val_two, Shape.rowMajor_val_one]
  have h0 : (i 0).val < 1 := (i 0).isLt
  show (i 1).val = (i 0).val * 4096 + (i 1).val
  omega

/-! ## The two pallas_calls -/

/-- After the first pallas_call its output array holds the combined weight. -/
theorem weight_after (c : Dev nD) :
    (V2 m ρ c main_v4 : S2048x4096.Idx → EReal)
      = weightMat (m ((c : Thread nD τ).loc main_arg1)) (m ((c : Thread nD τ).loc main_arg3)) := by
  refine (W2_arr m ρ c 2).trans ?_
  rw [wFinal (V1 m ρ) c, staged_normals, staged_signs]

/-- The first pallas_call leaves the staged tokens alone. -/
theorem tokens_after (c : Dev nD) :
    (V2 m ρ c main_v2 : S8192x2048.Idx → EReal) = m ((c : Thread nD τ).loc main_arg0) :=
  (W2_of_ne m ρ c main_v2 (by decide)).trans (staged_tokens m ρ c)

/-- … and the bias row. -/
theorem bias_after (c : Dev nD) :
    (V2 m ρ c main_v3 : S1x4096.Idx → EReal) = biasRow (m ((c : Thread nD τ).loc main_arg2)) :=
  (W2_of_ne m ρ c main_v3 (by decide)).trans (staged_bias m ρ c)

/-- THE KERNEL PROGRAM'S RESULT: at the last boundary the result buffer holds `logits` of the argument arrays. -/
theorem result_eq (c : Dev nD) :
    (W3 m ρ c (Proc.devRef .tc main_v5) : S8192x4096.Idx → EReal)
      = logits (m ((c : Thread nD τ).loc main_arg0)) (m ((c : Thread nD τ).loc main_arg1))
          (m ((c : Thread nD τ).loc main_arg2)) (m ((c : Thread nD τ).loc main_arg3)) := by
  refine (W3_arr m ρ c 3).trans ?_
  rw [xFinal (V2 m ρ) c, tokens_after, weight_after, bias_after]
  rfl

end Cert.KernelIdeal.Bridge

end
-- ==== Proof.RefValue.lean ====
/-
  The reference program's result is `logits`: it contracts normals with signs over the 4095 nodes, contracts the
  tokens with that product over the 2048 features, and adds the biases repeated down the 8192 rows. Each of its
  five operations is read at one entry; the composed index functions are the coordinate pairs the result is
  stated over.
-/
import proofs.«162029_j13554916786432_1_alg».proof.Proof.Gen.ReferenceIdeal.Read
import proofs.«162029_j13554916786432_1_alg».proof.Proof.Spec

noncomputable section

open scoped BigOperators

namespace Cert.ReferenceIdeal.RefValue

open Cert.ReferenceIdeal Cert.ReferenceIdeal.Read Idealize.ShloMosaic Idealize.ShloMosaic.TcCoe Idealize.ShloMosaic.ValueIdx
open Cert.TreeLogits

theorem tokenIdx (t : Fin 8192) (n : Fin 4096) (d : Fin 2048) : lidx_main_v1 (ix2 t n) d = ix2 t d :=
  funext fun a => Fin.ext (by match a with | ⟨0, _⟩ => rfl | ⟨1, _⟩ => rfl)
theorem weightIdx (t : Fin 8192) (n : Fin 4096) (d : Fin 2048) : ridx_main_v1 (ix2 t n) d = ix2 d n :=
  funext fun a => Fin.ext (by match a with | ⟨0, _⟩ => rfl | ⟨1, _⟩ => rfl)
theorem normalIdx (d : Fin 2048) (n : Fin 4096) (k : Fin 4095) : lidx_main_v0 (ix2 d n) k = ix2 k d :=
  funext fun a => Fin.ext (by match a with | ⟨0, _⟩ => rfl | ⟨1, _⟩ => rfl)
theorem signIdx (d : Fin 2048) (n : Fin 4096) (k : Fin 4095) : ridx_main_v0 (ix2 d n) k = ix2 k n :=
  funext fun a => Fin.ext (by match a with | ⟨0, _⟩ => rfl | ⟨1, _⟩ => rfl)
theorem biasIdx (t : Fin 8192) (n : Fin 4096) : idx_main_v2 (idx_main_v3 (ix2 t n)) = ix1 n :=
  funext fun a => Fin.ext (by match a with | ⟨0, _⟩ => rfl)

/-- The reference's last stage is `logits` of its four arguments. -/
theorem ref_eq (x0 : Mat 8192 2048) (x1 : Mat 4095 2048) (x2 : (⟨1, ![4096]⟩ : Shape).Idx → EReal) (x3 : Mat 4095 4096) :
    val_main_v4 (F := Ideal) x0 x1 x2 x3 = logits x0 x1 x2 x3 := by
  funext i
  obtain ⟨t, n, rfl⟩ : ∃ (t : Fin 8192) (n : Fin 4096), i = ix2 t n := ⟨i 0, i 1, eq_ix2 i⟩
  rw [val_main_v4_apply, val_main_v1_apply, val_main_v3_apply, val_main_v2_apply, logits_apply, biasIdx]
  refine congrArg₂ (· + ·) (Finset.sum_congr rfl fun d _ => ?_) rfl
  rw [tokenIdx, weightIdx, val_main_v0_apply]
  refine congrArg₂ (· * ·) rfl (Finset.sum_congr rfl fun k _ => ?_)
  rw [normalIdx, signIdx]

end Cert.ReferenceIdeal.RefValue

end
-- ==== Proof.lean ====
/-
  The certificate of a two-stage tree-logits kernel against its reference.

  Both programs compute, for token t and leaf n,

      logits t n = (∑ d < 2048, X (t, d) · (∑ k < 4095, normals (k, d) · S (k, n))) + biases n

  over the extended reals. The reference does so with two whole-array contractions and a broadcast bias. The
  kernel narrows the float format of its operands (the identity on extended reals), forms the inner sums in a
  first pallas_call, 512 columns of the weight per grid point, and the outer sums plus bias in a second, one
  1024 × 1024 block of the result per grid point. Each side takes each sum over the contracted index in order, so
  the two results are the same nested sum entry by entry and no law of the extended reals is needed beyond
  reading both sums; the precondition (finite inputs) is not used.

  The kernel program's run with its result buffer named is `GenNamed.run_named`; what that buffer holds is
  `Bridge.result_eq`; the reference's run is the generated one and its last stage is `RefValue.ref_eq`.
-/
import proofs.«162029_j13554916786432_1_alg».proof.Defs
import proofs.«162029_j13554916786432_1_alg».proof.Proof.Gen.Kernel
import proofs.«162029_j13554916786432_1_alg».proof.Proof.Gen.Kernel.Skeleton
import proofs.«162029_j13554916786432_1_alg».proof.Proof.Gen.Kernel.Launch
import proofs.«162029_j13554916786432_1_alg».proof.Proof.Gen.Kernel.Points
import proofs.«162029_j13554916786432_1_alg».proof.Proof.Gen.Kernel.Frame
import proofs.«162029_j13554916786432_1_alg».proof.Proof.Gen.KernelIdeal
import proofs.«162029_j13554916786432_1_alg».proof.Proof.Gen.KernelIdeal.Skeleton
import proofs.«162029_j13554916786432_1_alg».proof.Proof.Gen.KernelIdeal.Launch
import proofs.«162029_j13554916786432_1_alg».proof.Proof.Gen.KernelIdeal.Points
import proofs.«162029_j13554916786432_1_alg».proof.Proof.Gen.KernelIdeal.Frame
import proofs.«162029_j13554916786432_1_alg».proof.Proof.Gen.ReferenceIdeal
import proofs.«162029_j13554916786432_1_alg».proof.Proof.Gen.Pre_finite_inputs
import proofs.«162029_j13554916786432_1_alg».proof.Proof.Gen.ReferenceIdeal.Run
import proofs.«162029_j13554916786432_1_alg».proof.Proof.Gen.ReferenceIdeal.Read
import proofs.«162029_j13554916786432_1_alg».proof.Proof.NamedRun
import proofs.«162029_j13554916786432_1_alg».proof.Proof.KernelValue
import proofs.«162029_j13554916786432_1_alg».proof.Proof.RefValue
import Idealize.ShloMosaic.Adequacy
import Idealize.ShloMosaic.Init

noncomputable section

namespace Cert.Proof

open Idealize.ShloMosaic Idealize.SL.Sem

/-- The word-level kernel program runs, faults nowhere and leaves its arguments as launched. -/
theorem frame_kernel : Cert.frame_Kernel := fun m ρ _ => Cert.Kernel.Gen.frame m ρ

/-- So does the kernel program read over the extended reals. -/
theorem frame_kernelIdeal : Cert.frame_KernelIdeal := fun m ρ _ => Cert.KernelIdeal.Gen.frame m ρ

/-- The reference is five host operations: its run, with the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote nothing, so there is nothing to preserve. -/
theorem preserves : Cert.preserves_Kernel_KernelIdeal := trivial

/-- From memories that agree on the four arguments, both programs end with `logits` of those arguments in their
    result buffers. -/
theorem algebraic : Cert.algebraic_KernelIdeal_ReferenceIdeal := by
  intro m ρ m' ρ' _ hagree
  refine ⟨_, (θ_run Cert.KernelIdeal.defs _ _).mono
      (fun r h c => ⟨(h c).1.trans (Cert.KernelIdeal.Bridge.result_eq m ρ c), (h c).2⟩)
      (Cert.KernelIdeal.GenNamed.run_named (F := Ideal) m ρ), ?_⟩
  refine (θ_run Cert.ReferenceIdeal.defs _ _).mono (fun r h c => ⟨(h c).1.trans ?_, (h c).2⟩)
    (Cert.ReferenceIdeal.Value.run (F := Ideal) m' ρ')
  rw [Cert.ReferenceIdeal.Read.val_main_v4_eq, Cert.ReferenceIdeal.RefValue.ref_eq,
    (hagree c).1, (hagree c).2.1, (hagree c).2.2.1, (hagree c).2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
